-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x512 : Shape := ⟨2, ![256, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x512 .f32) (main_arg5 : FVec F S512x256 .f32) (main_arg6 : FVec F S1x256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  main_v33

def fn {F : FTy → Type} [FloatOps F] (main_arg0 : FVec F S65536x256 .f32) (main_arg1 : FVec F S256x512 .f32) (main_arg2 : FVec F S1x512 .f32) (main_arg3 : FVec F S512x512 .f32) (main_arg4 : FVec F S1x512 .f32) (main_arg5 : FVec F S512x256 .f32) (main_arg6 : FVec F S1x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S65536x256 : Shape := ⟨2, ![65536, 256]⟩
abbrev S256x512 : Shape := ⟨2, ![256, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S_ : Shape := ⟨0, ![]⟩
abbrev S2048x256 : Shape := ⟨2, ![2048, 256]⟩
abbrev S2048x512 : Shape := ⟨2, ![2048, 512]⟩

abbrev nBuf : Space → Nat
  | .hbm => 17
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S_, .i32⟩
  | .hbm, ⟨8, _⟩ => ⟨S_, .f32⟩
  | .hbm, ⟨9, _⟩ => ⟨S65536x256, .f32⟩
  | .hbm, ⟨10, _⟩ => ⟨S_, .i32⟩
  | .hbm, ⟨11, _⟩ => ⟨S_, .f32⟩
  | .hbm, ⟨12, _⟩ => ⟨S512x256, .f32⟩
  | .hbm, ⟨13, _⟩ => ⟨S_, .i32⟩
  | .hbm, ⟨14, _⟩ => ⟨S_, .f32⟩
  | .hbm, ⟨15, _⟩ => ⟨S1x256, .f32⟩
  | .hbm, ⟨16, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v1 : Ref sig .tc := ⟨.hbm, 12, rfl⟩
abbrev main_call0_c_1 : Ref sig .tc := ⟨.hbm, 13, rfl⟩
abbrev main_call0_call2_v0 : Ref sig .tc := ⟨.hbm, 14, rfl⟩
abbrev main_call0_v2 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S65536x256_S65536x256_000_000 : S65536x256.Pads (![0, 0] : Fin 2 → Nat) ![0, 0] ![0, 0] S65536x256
  h_S_ : 0 < S_.numel
  pads_S512x256_S512x256_000_000 : S512x256.Pads (![0, 0] : Fin 2 → Nat) ![0, 0] ![0, 0] S512x256
  pads_S1x256_S1x256_000_000 : S1x256.Pads (![0, 0] : Fin 2 → Nat) ![0, 0] ![0, 0] S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_call0_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x512 : Shape := ⟨2, ![256, 512]⟩
abbrev S1x512 : Shape := ⟨2, ![1, 512]⟩
abbrev S512x512 : Shape := ⟨2, ![512, 512]⟩
abbrev S512x256 : Shape := ⟨2, ![512, 256]⟩
abbrev S1x256 : Shape := ⟨2, ![1, 256]⟩
abbrev S_ : Shape := ⟨0, ![]⟩
abbrev S1024x256 : Shape := ⟨2, ![1024, 256]⟩
abbrev S1024x512 : Shape := ⟨2, ![1024, 512]⟩

abbrev nBuf : Space → Nat
  | .hbm => 17
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S_, .i32⟩
  | .hbm, ⟨8, _⟩ => ⟨S_, .f32⟩
  | .hbm, ⟨9, _⟩ => ⟨S65536x256, .f32⟩
  | .hbm, ⟨10, _⟩ => ⟨S_, .i32⟩
  | .hbm, ⟨11, _⟩ => ⟨S_, .f32⟩
  | .hbm, ⟨12, _⟩ => ⟨S512x256, .f32⟩
  | .hbm, ⟨13, _⟩ => ⟨S_, .i32⟩
  | .hbm, ⟨14, _⟩ => ⟨S_, .f32⟩
  | .hbm, ⟨15, _⟩ => ⟨S1x256, .f32⟩
  | .hbm, ⟨16, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v1 : Ref sig .tc := ⟨.hbm, 12, rfl⟩
abbrev main_call0_c_1 : Ref sig .tc := ⟨.hbm, 13, rfl⟩
abbrev main_call0_call2_v0 : Ref sig .tc := ⟨.hbm, 14, rfl⟩
abbrev main_call0_v2 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S65536x256_S65536x256_000_000 : S65536x256.Pads (![0, 0] : Fin 2 → Nat) ![0, 0] ![0, 0] S65536x256
  h_S_ : 0 < S_.numel
  pads_S512x256_S512x256_000_000 : S512x256.Pads (![0, 0] : Fin 2 → Nat) ![0, 0] ![0, 0] S512x256
  pads_S1x256_S1x256_000_000 : S1x256.Pads (![0, 0] : Fin 2 → Nat) ![0, 0] ![0, 0] S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_call0_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Mlp.lean ====
/-
  The three-layer network one row at a time, and the block body read at an index.

  A row `x` of 256 inputs goes through two hidden layers of 512 units, each the row times the weight matrix plus the
  bias row, clipped below at zero, and through a last layer of 256 units, the hidden row times the weights plus the
  bias, under the hyperbolic tangent: `net`. The body a grid point runs on a block of `R` rows computes, at row `p`
  and column `q`, `net` of the block's row `p` at `q`, whatever `R` is: every operation of the body acts row by
  row, the three matrix products contracting the columns of their left factor against the rows of the weights.
-/
import Idealize.ShloMosaic.Lib.ValueIdx
import Idealize.ShloMosaic.Lib.ValueLayout
import Idealize.ShloMosaic.Lib.Pipeline.Value
import Idealize.ShloMosaic.PureOps.Ideal.Laws
import proofs.«110821_g2000507131286415_pallasbulk_1005_3_alg».proof.Proof.LibRowOps

noncomputable section

namespace Cert.Mlp

open Idealize.ShloMosaic Idealize.ShloMosaic.ValueIdx

/-- One unit of a hidden layer: the incoming row `h` against column `j` of the weights, plus the bias at `j`,
    clipped below at zero. -/
def layer {K N : ℕ} (h : Fin K → EReal) (w : FVec Ideal ⟨2, ![K, N]⟩ .f32) (b : FVec Ideal ⟨2, ![1, N]⟩ .f32)
    (j : Fin N) : EReal :=
  max (∑ k : Fin K, h k * w (ix2 k j) + b (ix2 (0 : Fin 1) j)) (Ideal.ofBits .f32 0x00000000#32)

/-- The network on one row: two clipped layers, then the last layer under the hyperbolic tangent. -/
def net (x : Fin 256 → EReal) (w1 : FVec Ideal ⟨2, ![256, 512]⟩ .f32) (b1 : FVec Ideal ⟨2, ![1, 512]⟩ .f32)
    (w2 : FVec Ideal ⟨2, ![512, 512]⟩ .f32) (b2 : FVec Ideal ⟨2, ![1, 512]⟩ .f32)
    (w3 : FVec Ideal ⟨2, ![512, 256]⟩ .f32) (b3 : FVec Ideal ⟨2, ![1, 256]⟩ .f32) (q : Fin 256) : EReal :=
  Ideal.tanh (∑ k : Fin 512, layer (layer x w1 b1) w2 b2 k * w3 (ix2 k q) + b3 (ix2 (0 : Fin 1) q))

/-- The whole result: row `r` of the output is `net` of row `r` of the input. -/
def out (x : FVec Ideal ⟨2, ![65536, 256]⟩ .f32) (w1 : FVec Ideal ⟨2, ![256, 512]⟩ .f32) (b1 : FVec Ideal ⟨2, ![1, 512]⟩ .f32)
    (w2 : FVec Ideal ⟨2, ![512, 512]⟩ .f32) (b2 : FVec Ideal ⟨2, ![1, 512]⟩ .f32)
    (w3 : FVec Ideal ⟨2, ![512, 256]⟩ .f32) (b3 : FVec Ideal ⟨2, ![1, 256]⟩ .f32) : FVec Ideal ⟨2, ![65536, 256]⟩ .f32 :=
  fun i => net (fun a => x (ix2 (i 0) a)) w1 b1 w2 b2 w3 b3 (i 1)

/-- A hidden layer of the block body at `(p, j)`: the product into a zero accumulator, the bias row broadcast over the
    rows, the maximum with the zero splat — `layer` of row `p` of the left factor. -/
theorem hidden_apply {R K N : ℕ} (h : FVec Ideal ⟨2, ![R, K]⟩ .f32) (w : FVec Ideal ⟨2, ![K, N]⟩ .f32)
    (b : FVec Ideal ⟨2, ![1, N]⟩ .f32) (hB : (⟨2, ![1, N]⟩ : Shape).Broadcasts ⟨2, ![R, N]⟩) (p : Fin R) (j : Fin N) :
    maximumf (addf (FloatOps.matmul (DotDims.plain R K N) none h w (constant (F := Ideal) ⟨2, ![R, N]⟩ .f32 0x00000000#32))
        (broadcastTo ⟨2, ![R, N]⟩ b hB)) (broadcast ⟨2, ![R, N]⟩ (FloatOps.ofBits (F := Ideal) .f32 0x00000000#32)) (ix2 p j)
      = layer (fun k => h (ix2 p k)) w b j := by
  rw [maximumf_apply, addf_apply, Cert.LibRowOps.matmul_plain_zero_apply, broadcastTo_1b_ab_apply, broadcast_apply]
  rfl

/-- The block body at `(p, q)` is the network on row `p` of the block, at `q`. -/
theorem block_apply (R : ℕ) (x : FVec Ideal ⟨2, ![R, 256]⟩ .f32) (w1 : FVec Ideal ⟨2, ![256, 512]⟩ .f32)
    (b1 : FVec Ideal ⟨2, ![1, 512]⟩ .f32) (w2 : FVec Ideal ⟨2, ![512, 512]⟩ .f32) (b2 : FVec Ideal ⟨2, ![1, 512]⟩ .f32)
    (w3 : FVec Ideal ⟨2, ![512, 256]⟩ .f32) (b3 : FVec Ideal ⟨2, ![1, 256]⟩ .f32)
    (hx : (⟨2, ![R, 256]⟩ : Shape).ShapeCasts ⟨2, ![R, 256]⟩) (hw3 : (⟨2, ![512, 256]⟩ : Shape).ShapeCasts ⟨2, ![512, 256]⟩)
    (hb3 : (⟨2, ![1, 256]⟩ : Shape).ShapeCasts ⟨2, ![1, 256]⟩)
    (hB1 : (⟨2, ![1, 512]⟩ : Shape).Broadcasts ⟨2, ![R, 512]⟩) (hB3 : (⟨2, ![1, 256]⟩ : Shape).Broadcasts ⟨2, ![R, 256]⟩)
    (p : Fin R) (q : Fin 256) :
    tanh (addf (FloatOps.matmul (DotDims.plain R 512 256) none
          (maximumf (addf (FloatOps.matmul (DotDims.plain R 512 512) none
              (maximumf (addf (FloatOps.matmul (DotDims.plain R 256 512) none (shapeCast ⟨2, ![R, 256]⟩ x hx) w1
                    (constant (F := Ideal) ⟨2, ![R, 512]⟩ .f32 0x00000000#32))
                  (broadcastTo ⟨2, ![R, 512]⟩ b1 hB1)) (broadcast ⟨2, ![R, 512]⟩ (FloatOps.ofBits (F := Ideal) .f32 0x00000000#32)))
              w2 (constant (F := Ideal) ⟨2, ![R, 512]⟩ .f32 0x00000000#32))
            (broadcastTo ⟨2, ![R, 512]⟩ b2 hB1)) (broadcast ⟨2, ![R, 512]⟩ (FloatOps.ofBits (F := Ideal) .f32 0x00000000#32)))
          (shapeCast ⟨2, ![512, 256]⟩ w3 hw3) (constant (F := Ideal) ⟨2, ![R, 256]⟩ .f32 0x00000000#32))
        (broadcastTo ⟨2, ![R, 256]⟩ (shapeCast ⟨2, ![1, 256]⟩ b3 hb3) hB3)) (ix2 p q)
      = net (fun i => x (ix2 p i)) w1 b1 w2 b2 w3 b3 q := by
  rw [shapeCast_self, shapeCast_self, shapeCast_self]
  show Ideal.tanh (_ + _) = _
  rw [Cert.LibRowOps.matmul_plain_zero_apply, broadcastTo_1b_ab_apply]
  unfold net
  refine congrArg Ideal.tanh (congrArg (· + b3 (ix2 (0 : Fin 1) q)) (Finset.sum_congr rfl fun k _ => ?_))
  rw [hidden_apply]
  refine congrArg (· * w3 (ix2 k q)) (congrArg (fun f => layer f w2 b2 k) (funext fun j => ?_))
  exact hidden_apply _ w1 b1 hB1 p j

end Cert.Mlp

end
-- ==== Proof.KernelRows.lean ====
/-
  What the program's result array holds after the run, as one function of the argument arrays.

  The grid has 32 points; point `t` stages rows `2048·t … 2048·t + 2047` of the input, the six parameter arrays
  whole at every point, and writes back rows `2048·t … 2048·t + 2047` of the result. The three paddings the host
  applies before the launch add nothing on any side, so the staged arrays are the arguments themselves. The body's
  store at row `p`, column `q` of the block is the network on row `p` of the staged input block (`Mlp.block_apply`),
  that is on row `2048·t + p` of the input: block `t` of `Mlp.out`. Row `r` of the result lies in the block of point
  `r / 2048`, so the blocks cover the array and it ends holding `Mlp.out` of the arguments.
-/
import proofs.«110821_g2000507131286415_pallasbulk_1005_3_alg».proof.Proof.Gen.KernelIdeal.Value
import proofs.«110821_g2000507131286415_pallasbulk_1005_3_alg».proof.Proof.Mlp
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The paddings before the launch add nothing -/

/-- A padding of a matrix by nothing, below, above and between, is the matrix. -/
theorem pad_nothing {a b : ℕ} {α : Type} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside _ _ _ x v h hu j j fun ax => ?_
  match ax with
  | ⟨0, _⟩ => show (j 0).val = 0 + (j 0).val * (0 + 1); omega
  | ⟨1, _⟩ => show (j 1).val = 0 + (j 1).val * (0 + 1); omega

/-- The input as the region finds it is the first argument. -/
theorem staged_x (c : Dev nD) : (V m c main_call0_v0 : S65536x256.Idx → EReal) = m ((c : Thread nD τ).loc main_arg0) := by
  dsimp only [Gen.V, Gen.hostOps0]; after_results
  show pad S65536x256 ![0, 0] ![0, 0] ![0, 0] (m ((c : Thread nD τ).loc main_arg0) : S65536x256.Idx → EReal) _
    Facts₀.pads_S65536x256_S65536x256_000_000 Facts₀.h_S_ = _
  exact pad_nothing _ _ _ _

/-- The last layer's weights as the region finds them are the sixth argument. -/
theorem staged_w3 (c : Dev nD) : (V m c main_call0_v1 : S512x256.Idx → EReal) = m ((c : Thread nD τ).loc main_arg5) := by
  dsimp only [Gen.V, Gen.hostOps0]; after_results
  show pad S512x256 ![0, 0] ![0, 0] ![0, 0] (m ((c : Thread nD τ).loc main_arg5) : S512x256.Idx → EReal) _
    Facts₀.pads_S512x256_S512x256_000_000 Facts₀.h_S_ = _
  exact pad_nothing _ _ _ _

/-- The last layer's bias as the region finds it is the seventh argument. -/
theorem staged_b3 (c : Dev nD) : (V m c main_call0_v2 : S1x256.Idx → EReal) = m ((c : Thread nD τ).loc main_arg6) := by
  dsimp only [Gen.V, Gen.hostOps0]; after_results
  show pad S1x256 ![0, 0] ![0, 0] ![0, 0] (m ((c : Thread nD τ).loc main_arg6) : S1x256.Idx → EReal) _
    Facts₀.pads_S1x256_S1x256_000_000 Facts₀.h_S_ = _
  exact pad_nothing _ _ _ _

/-! ## The blocks -/

/-- The printed index maps over the grid: the input and the result move one block of rows per point, the parameter
    arrays stay at their one block. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input block at point `t` is rows `2048·t …` of the first argument. -/
theorem xblk_apply (c : Dev nD) (t : Fin cfg0.N) (y : S2048x256.Idx) (k : S65536x256.Idx)
    (hk0 : (k 0).val = 2048 * t.val + (y 0).val) (hk1 : (k 1).val = (y 1).val) :
    (iblk m c 0 t : Vec Ideal S2048x256 .f32) y = (m ((c : Thread nD τ).loc main_arg0) : S65536x256.Idx → EReal) k := by
  obtain ⟨e0, e1, -⟩ := idx_facts t
  unfold iblk
  rw [View.read_apply]
  show V m c main_call0_v0 _ = _
  rw [staged_x]
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 256 + 1 * (y 1).val = (k 1).val; rw [e1, hk1]; omega

/-- Each parameter array's one block is the array. -/
theorem w1blk (c : Dev nD) (t : Fin cfg0.N) :
    (iblk m c 1 t : Vec Ideal S256x512 .f32) = m ((c : Thread nD τ).loc main_arg1) := by
  obtain ⟨-, -, -, -, e0, e1, -⟩ := idx_facts t
  funext y
  unfold iblk
  rw [View.read_apply]
  show V m c main_arg1 _ = _
  rw [V_main_arg1]
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

theorem b1blk (c : Dev nD) (t : Fin cfg0.N) :
    (iblk m c 2 t : Vec Ideal S1x512 .f32) = m ((c : Thread nD τ).loc main_arg2) := by
  obtain ⟨-, -, -, -, -, -, e0, e1, -⟩ := idx_facts t
  funext y
  unfold iblk
  rw [View.read_apply]
  show V m c main_arg2 _ = _
  rw [V_main_arg2]
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem w2blk (c : Dev nD) (t : Fin cfg0.N) :
    (iblk m c 3 t : Vec Ideal S512x512 .f32) = m ((c : Thread nD τ).loc main_arg3) := by
  obtain ⟨-, -, -, -, -, -, -, -, e0, e1, -⟩ := idx_facts t
  funext y
  unfold iblk
  rw [View.read_apply]
  show V m c main_arg3 _ = _
  rw [V_main_arg3]
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem b2blk (c : Dev nD) (t : Fin cfg0.N) :
    (iblk m c 4 t : Vec Ideal S1x512 .f32) = m ((c : Thread nD τ).loc main_arg4) := by
  obtain ⟨-, -, -, -, -, -, -, -, -, -, e0, e1, -⟩ := idx_facts t
  funext y
  unfold iblk
  rw [View.read_apply]
  show V m c main_arg4 _ = _
  rw [V_main_arg4]
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

theorem w3blk (c : Dev nD) (t : Fin cfg0.N) :
    (iblk m c 5 t : Vec Ideal S512x256 .f32) = m ((c : Thread nD τ).loc main_arg5) := by
  obtain ⟨-, -, -, -, -, -, -, -, -, -, -, -, e0, e1, -⟩ := idx_facts t
  funext y
  unfold iblk
  rw [View.read_apply]
  show V m c main_call0_v1 _ = _
  rw [staged_w3]
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

theorem b3blk (c : Dev nD) (t : Fin cfg0.N) :
    (iblk m c 6 t : Vec Ideal S1x256 .f32) = m ((c : Thread nD τ).loc main_arg6) := by
  obtain ⟨-, -, -, -, -, -, -, -, -, -, -, -, -, -, e0, e1⟩ := idx_facts t
  funext y
  unfold iblk
  rw [View.read_apply]
  show V m c main_call0_v2 _ = _
  rw [staged_b3]
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## The body's store, and what a point writes back -/

/-- The body's store at row `p`, column `q` of the block: the network on row `p` of the staged input block. -/
theorem pay_apply (x0 : Vec Ideal S2048x256 .f32) (x1 : Vec Ideal S256x512 .f32) (x2 : Vec Ideal S1x512 .f32)
    (x3 : Vec Ideal S512x512 .f32) (x4 : Vec Ideal S1x512 .f32) (x5 : Vec Ideal S512x256 .f32) (x6 : Vec Ideal S1x256 .f32)
    (p : Fin 2048) (q : Fin 256) :
    k0_pay1 x0 x1 x2 x3 x4 x5 x6 (ix2 p q) = Cert.Mlp.net (fun i => x0 (ix2 p i)) x1 x2 x3 x4 x5 x6 q :=
  Cert.Mlp.block_apply 2048 x0 x1 x2 x3 x4 x5 x6 _ _ _ _ _ p q

/-- The network's value depends only on its arguments. -/
theorem net_congr {x x' : Fin 256 → EReal} {w1 w1' : FVec Ideal ⟨2, ![256, 512]⟩ .f32} {b1 b1' : FVec Ideal ⟨2, ![1, 512]⟩ .f32}
    {w2 w2' : FVec Ideal ⟨2, ![512, 512]⟩ .f32} {b2 b2' : FVec Ideal ⟨2, ![1, 512]⟩ .f32}
    {w3 w3' : FVec Ideal ⟨2, ![512, 256]⟩ .f32} {b3 b3' : FVec Ideal ⟨2, ![1, 256]⟩ .f32} {q q' : Fin 256}
    (hx : x = x') (h1 : w1 = w1') (h2 : b1 = b1') (h3 : w2 = w2') (h4 : b2 = b2') (h5 : w3 = w3') (h6 : b3 = b3') (hq : q = q') :
    Cert.Mlp.net x w1 b1 w2 b2 w3 b3 q = Cert.Mlp.net x' w1' b1' w2' b2' w3' b3' q' := by
  rw [hx, h1, h2, h3, h4, h5, h6, hq]

/-- The result of the whole run, as a function of the launch memory. -/
abbrev result (c : Dev nD) : S65536x256.Idx → EReal :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2048x256) hz, View.ld_unit_zero (S := S256x512) hz, View.ld_unit_zero (S := S1x512) hz,
    View.ld_unit_zero (S := S512x512) hz, View.ld_unit_zero (S := S512x256) hz, View.ld_unit_zero (S := S1x256) hz]
  obtain ⟨-, -, e0, e1, -⟩ := idx_facts t
  funext j
  obtain ⟨p, q, rfl⟩ : ∃ (p : Fin 2048) (q : Fin 256), j = ix2 p q := ⟨j 0, j 1, eq_ix2 j⟩
  show k0_pay1 (iblk m c 0 t) (iblk m c 1 t) (iblk m c 2 t) (iblk m c 3 t) (iblk m c 4 t) (iblk m c 5 t) (iblk m c 6 t) (ix2 p q)
    = result m c (((cfg0.win 7).blk t).view.emb (ix2 p q))
  refine (pay_apply (iblk m c 0 t) (iblk m c 1 t) (iblk m c 2 t) (iblk m c 3 t) (iblk m c 4 t) (iblk m c 5 t) (iblk m c 6 t) p q).trans ?_
  refine net_congr (funext fun i => xblk_apply m c t (ix2 p i) _ ?_ rfl) (w1blk m c t) (b1blk m c t) (w2blk m c t) (b2blk m c t)
    (w3blk m c t) (b3blk m c t) (Fin.ext ?_)
  · show win0_7.index t (0 : Fin 2) * 2048 + 1 * p.val = 2048 * t.val + p.val
    rw [e0]; omega
  · show q.val = win0_7.index t (1 : Fin 2) * 256 + 1 * q.val
    rw [e1]; omega

/-! ## The blocks cover the array -/

/-- An index of the array is in point `t`'s block iff each coordinate is in the block's range on its axis. -/
theorem mem_blk (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v0).slice (win0_7.rect t)).set ↔ _
  rw [View.set_slice_whole, Rect.mem_set_unit]
  exact Iff.rfl

/-- Row `r` lies in the block of point `r / 2048`. -/
theorem cover (i : S65536x256.Idx) : ∃ t : Fin cfg0.N, (cfg0.win 7).flush t = true ∧ i ∈ ((cfg0.win 7).blk t).view.set := by
  have h0 : (i 0).val < 65536 := idx2_lt0 i
  have h1 : (i 1).val < 256 := idx2_lt1 i
  have hN : grid0.N = 32 := N_0
  let t : Fin cfg0.N := ⟨(i 0).val / 2048, by show (i 0).val / 2048 < grid0.N; rw [hN]; omega⟩
  obtain ⟨-, -, e0, e1, -⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [e0]; show (i 0).val / 2048 * 2048 ≤ (i 0).val ∧ (i 0).val < (i 0).val / 2048 * 2048 + 2048; omega
  | ⟨1, _⟩ =>
    show win0_7.index t (1 : Fin 2) * 256 ≤ (i 1).val ∧ (i 1).val < win0_7.index t (1 : Fin 2) * 256 + 256
    rw [e1]; omega

/-- So the result array ends holding `result`. -/
theorem final (c : Dev nD) : (dats m 0 c).arrAt 7 cfg0.N = result m c :=
  (dats m 0 c).arrAt_eq_of_cover 7 (result m c) (fun t _ => flushed_eq m c t) cover

/-- The run, read: the result array at `Mlp.out` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Rows

end
-- ==== Proof.RefRows.lean ====
/-
  What the program's result array holds after the run, as one function of the argument arrays.

  The grid has 64 points; point `t` stages rows `1024·t … 1024·t + 1023` of the input, the six parameter arrays
  whole at every point, and writes back rows `1024·t … 1024·t + 1023` of the result. The three paddings the host
  applies before the launch add nothing on any side, so the staged arrays are the arguments themselves. The body's
  store at row `p`, column `q` of the block is the network on row `p` of the staged input block (`Mlp.block_apply`),
  that is on row `1024·t + p` of the input: block `t` of `Mlp.out`. Row `r` of the result lies in the block of point
  `r / 1024`, so the blocks cover the array and it ends holding `Mlp.out` of the arguments.
-/
import proofs.«110821_g2000507131286415_pallasbulk_1005_3_alg».proof.Proof.Gen.ReferenceIdeal.Value
import proofs.«110821_g2000507131286415_pallasbulk_1005_3_alg».proof.Proof.Mlp
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Rows

open Cert.ReferenceIdeal Cert.ReferenceIdeal.Gen Cert.ReferenceIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The paddings before the launch add nothing -/

/-- A padding of a matrix by nothing, below, above and between, is the matrix. -/
theorem pad_nothing {a b : ℕ} {α : Type} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside _ _ _ x v h hu j j fun ax => ?_
  match ax with
  | ⟨0, _⟩ => show (j 0).val = 0 + (j 0).val * (0 + 1); omega
  | ⟨1, _⟩ => show (j 1).val = 0 + (j 1).val * (0 + 1); omega

/-- The input as the region finds it is the first argument. -/
theorem staged_x (c : Dev nD) : (V m c main_call0_v0 : S65536x256.Idx → EReal) = m ((c : Thread nD τ).loc main_arg0) := by
  dsimp only [Gen.V, Gen.hostOps0]; after_results
  show pad S65536x256 ![0, 0] ![0, 0] ![0, 0] (m ((c : Thread nD τ).loc main_arg0) : S65536x256.Idx → EReal) _
    Facts₀.pads_S65536x256_S65536x256_000_000 Facts₀.h_S_ = _
  exact pad_nothing _ _ _ _

/-- The last layer's weights as the region finds them are the sixth argument. -/
theorem staged_w3 (c : Dev nD) : (V m c main_call0_v1 : S512x256.Idx → EReal) = m ((c : Thread nD τ).loc main_arg5) := by
  dsimp only [Gen.V, Gen.hostOps0]; after_results
  show pad S512x256 ![0, 0] ![0, 0] ![0, 0] (m ((c : Thread nD τ).loc main_arg5) : S512x256.Idx → EReal) _
    Facts₀.pads_S512x256_S512x256_000_000 Facts₀.h_S_ = _
  exact pad_nothing _ _ _ _

/-- The last layer's bias as the region finds it is the seventh argument. -/
theorem staged_b3 (c : Dev nD) : (V m c main_call0_v2 : S1x256.Idx → EReal) = m ((c : Thread nD τ).loc main_arg6) := by
  dsimp only [Gen.V, Gen.hostOps0]; after_results
  show pad S1x256 ![0, 0] ![0, 0] ![0, 0] (m ((c : Thread nD τ).loc main_arg6) : S1x256.Idx → EReal) _
    Facts₀.pads_S1x256_S1x256_000_000 Facts₀.h_S_ = _
  exact pad_nothing _ _ _ _

/-! ## The blocks -/

/-- The printed index maps over the grid: the input and the result move one block of rows per point, the parameter
    arrays stay at their one block. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The input block at point `t` is rows `1024·t …` of the first argument. -/
theorem xblk_apply (c : Dev nD) (t : Fin cfg0.N) (y : S1024x256.Idx) (k : S65536x256.Idx)
    (hk0 : (k 0).val = 1024 * t.val + (y 0).val) (hk1 : (k 1).val = (y 1).val) :
    (iblk m c 0 t : Vec Ideal S1024x256 .f32) y = (m ((c : Thread nD τ).loc main_arg0) : S65536x256.Idx → EReal) k := by
  obtain ⟨e0, e1, -⟩ := idx_facts t
  unfold iblk
  rw [View.read_apply]
  show V m c main_call0_v0 _ = _
  rw [staged_x]
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 256 + 1 * (y 1).val = (k 1).val; rw [e1, hk1]; omega

/-- Each parameter array's one block is the array. -/
theorem w1blk (c : Dev nD) (t : Fin cfg0.N) :
    (iblk m c 1 t : Vec Ideal S256x512 .f32) = m ((c : Thread nD τ).loc main_arg1) := by
  obtain ⟨-, -, -, -, e0, e1, -⟩ := idx_facts t
  funext y
  unfold iblk
  rw [View.read_apply]
  show V m c main_arg1 _ = _
  rw [V_main_arg1]
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

theorem b1blk (c : Dev nD) (t : Fin cfg0.N) :
    (iblk m c 2 t : Vec Ideal S1x512 .f32) = m ((c : Thread nD τ).loc main_arg2) := by
  obtain ⟨-, -, -, -, -, -, e0, e1, -⟩ := idx_facts t
  funext y
  unfold iblk
  rw [View.read_apply]
  show V m c main_arg2 _ = _
  rw [V_main_arg2]
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem w2blk (c : Dev nD) (t : Fin cfg0.N) :
    (iblk m c 3 t : Vec Ideal S512x512 .f32) = m ((c : Thread nD τ).loc main_arg3) := by
  obtain ⟨-, -, -, -, -, -, -, -, e0, e1, -⟩ := idx_facts t
  funext y
  unfold iblk
  rw [View.read_apply]
  show V m c main_arg3 _ = _
  rw [V_main_arg3]
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem b2blk (c : Dev nD) (t : Fin cfg0.N) :
    (iblk m c 4 t : Vec Ideal S1x512 .f32) = m ((c : Thread nD τ).loc main_arg4) := by
  obtain ⟨-, -, -, -, -, -, -, -, -, -, e0, e1, -⟩ := idx_facts t
  funext y
  unfold iblk
  rw [View.read_apply]
  show V m c main_arg4 _ = _
  rw [V_main_arg4]
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

theorem w3blk (c : Dev nD) (t : Fin cfg0.N) :
    (iblk m c 5 t : Vec Ideal S512x256 .f32) = m ((c : Thread nD τ).loc main_arg5) := by
  obtain ⟨-, -, -, -, -, -, -, -, -, -, -, -, e0, e1, -⟩ := idx_facts t
  funext y
  unfold iblk
  rw [View.read_apply]
  show V m c main_call0_v1 _ = _
  rw [staged_w3]
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

theorem b3blk (c : Dev nD) (t : Fin cfg0.N) :
    (iblk m c 6 t : Vec Ideal S1x256 .f32) = m ((c : Thread nD τ).loc main_arg6) := by
  obtain ⟨-, -, -, -, -, -, -, -, -, -, -, -, -, -, e0, e1⟩ := idx_facts t
  funext y
  unfold iblk
  rw [View.read_apply]
  show V m c main_call0_v2 _ = _
  rw [staged_b3]
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## The body's store, and what a point writes back -/

/-- The body's store at row `p`, column `q` of the block: the network on row `p` of the staged input block. -/
theorem pay_apply (x0 : Vec Ideal S1024x256 .f32) (x1 : Vec Ideal S256x512 .f32) (x2 : Vec Ideal S1x512 .f32)
    (x3 : Vec Ideal S512x512 .f32) (x4 : Vec Ideal S1x512 .f32) (x5 : Vec Ideal S512x256 .f32) (x6 : Vec Ideal S1x256 .f32)
    (p : Fin 1024) (q : Fin 256) :
    k0_pay1 x0 x1 x2 x3 x4 x5 x6 (ix2 p q) = Cert.Mlp.net (fun i => x0 (ix2 p i)) x1 x2 x3 x4 x5 x6 q :=
  Cert.Mlp.block_apply 1024 x0 x1 x2 x3 x4 x5 x6 _ _ _ _ _ p q

/-- The network's value depends only on its arguments. -/
theorem net_congr {x x' : Fin 256 → EReal} {w1 w1' : FVec Ideal ⟨2, ![256, 512]⟩ .f32} {b1 b1' : FVec Ideal ⟨2, ![1, 512]⟩ .f32}
    {w2 w2' : FVec Ideal ⟨2, ![512, 512]⟩ .f32} {b2 b2' : FVec Ideal ⟨2, ![1, 512]⟩ .f32}
    {w3 w3' : FVec Ideal ⟨2, ![512, 256]⟩ .f32} {b3 b3' : FVec Ideal ⟨2, ![1, 256]⟩ .f32} {q q' : Fin 256}
    (hx : x = x') (h1 : w1 = w1') (h2 : b1 = b1') (h3 : w2 = w2') (h4 : b2 = b2') (h5 : w3 = w3') (h6 : b3 = b3') (hq : q = q') :
    Cert.Mlp.net x w1 b1 w2 b2 w3 b3 q = Cert.Mlp.net x' w1' b1' w2' b2' w3' b3' q' := by
  rw [hx, h1, h2, h3, h4, h5, h6, hq]

/-- The result of the whole run, as a function of the launch memory. -/
abbrev result (c : Dev nD) : S65536x256.Idx → EReal :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1024x256) hz, View.ld_unit_zero (S := S256x512) hz, View.ld_unit_zero (S := S1x512) hz,
    View.ld_unit_zero (S := S512x512) hz, View.ld_unit_zero (S := S512x256) hz, View.ld_unit_zero (S := S1x256) hz]
  obtain ⟨-, -, e0, e1, -⟩ := idx_facts t
  funext j
  obtain ⟨p, q, rfl⟩ : ∃ (p : Fin 1024) (q : Fin 256), j = ix2 p q := ⟨j 0, j 1, eq_ix2 j⟩
  show k0_pay1 (iblk m c 0 t) (iblk m c 1 t) (iblk m c 2 t) (iblk m c 3 t) (iblk m c 4 t) (iblk m c 5 t) (iblk m c 6 t) (ix2 p q)
    = result m c (((cfg0.win 7).blk t).view.emb (ix2 p q))
  refine (pay_apply (iblk m c 0 t) (iblk m c 1 t) (iblk m c 2 t) (iblk m c 3 t) (iblk m c 4 t) (iblk m c 5 t) (iblk m c 6 t) p q).trans ?_
  refine net_congr (funext fun i => xblk_apply m c t (ix2 p i) _ ?_ rfl) (w1blk m c t) (b1blk m c t) (w2blk m c t) (b2blk m c t)
    (w3blk m c t) (b3blk m c t) (Fin.ext ?_)
  · show win0_7.index t (0 : Fin 2) * 1024 + 1 * p.val = 1024 * t.val + p.val
    rw [e0]; omega
  · show q.val = win0_7.index t (1 : Fin 2) * 256 + 1 * q.val
    rw [e1]; omega

/-! ## The blocks cover the array -/

/-- An index of the array is in point `t`'s block iff each coordinate is in the block's range on its axis. -/
theorem mem_blk (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0).slice (win0_7.rect t)).set ↔ _
  rw [View.set_slice_whole, Rect.mem_set_unit]
  exact Iff.rfl

/-- Row `r` lies in the block of point `r / 1024`. -/
theorem cover (i : S65536x256.Idx) : ∃ t : Fin cfg0.N, (cfg0.win 7).flush t = true ∧ i ∈ ((cfg0.win 7).blk t).view.set := by
  have h0 : (i 0).val < 65536 := idx2_lt0 i
  have h1 : (i 1).val < 256 := idx2_lt1 i
  have hN : grid0.N = 64 := N_0
  let t : Fin cfg0.N := ⟨(i 0).val / 1024, by show (i 0).val / 1024 < grid0.N; rw [hN]; omega⟩
  obtain ⟨-, -, e0, e1, -⟩ := idx_facts t
  refine ⟨t, flush0_7 t, ?_⟩
  rw [mem_blk]
  intro a
  match a with
  | ⟨0, _⟩ =>
    show win0_7.index t (0 : Fin 2) * 1024 ≤ (i 0).val ∧ (i 0).val < win0_7.index t (0 : Fin 2) * 1024 + 1024
    rw [e0]; show (i 0).val / 1024 * 1024 ≤ (i 0).val ∧ (i 0).val < (i 0).val / 1024 * 1024 + 1024; omega
  | ⟨1, _⟩ =>
    show win0_7.index t (1 : Fin 2) * 256 ≤ (i 1).val ∧ (i 1).val < win0_7.index t (1 : Fin 2) * 256 + 256
    rw [e1]; omega

/-- So the result array ends holding `result`. -/
theorem final (c : Dev nD) : (dats m 0 c).arrAt 7 cfg0.N = result m c :=
  (dats m 0 c).arrAt_eq_of_cover 7 (result m c) (fun t _ => flushed_eq m c t) cover

/-- The run, read: the result array at `Mlp.out` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.ReferenceIdeal.Rows

end
-- ==== Proof.lean ====
/-
  The kernel and its reference are one three-layer network, run by one block body over the rows of the input: the kernel
  on 32 blocks of 2048 rows, the reference on 64 blocks of 1024 rows. The body acts row by row — three matrix products
  against the resident weights, a bias row added and a clip at zero after the first two, the hyperbolic tangent after the
  third — so whichever rows a block holds, row `r` of the result is `Mlp.net` of row `r` of the input, and both result
  arrays end holding `Mlp.out` of the arguments (Proof/KernelRows.lean, Proof/RefRows.lean over Proof/Mlp.lean). At the
  exact values both sides are the same sums in the same places, so no law of arithmetic and no finiteness is used.
  The three frames are the generated frame certificates; the idealization rewrote nothing.
-/
import proofs.«110821_g2000507131286415_pallasbulk_1005_3_alg».proof.Defs
import proofs.«110821_g2000507131286415_pallasbulk_1005_3_alg».proof.Proof.Gen.Kernel
import proofs.«110821_g2000507131286415_pallasbulk_1005_3_alg».proof.Proof.Gen.Kernel.Skeleton
import proofs.«110821_g2000507131286415_pallasbulk_1005_3_alg».proof.Proof.Gen.Kernel.Launch
import proofs.«110821_g2000507131286415_pallasbulk_1005_3_alg».proof.Proof.Gen.Kernel.Points
import proofs.«110821_g2000507131286415_pallasbulk_1005_3_alg».proof.Proof.Gen.Kernel.Frame
import proofs.«110821_g2000507131286415_pallasbulk_1005_3_alg».proof.Proof.Gen.KernelIdeal
import proofs.«110821_g2000507131286415_pallasbulk_1005_3_alg».proof.Proof.Gen.KernelIdeal.Skeleton
import proofs.«110821_g2000507131286415_pallasbulk_1005_3_alg».proof.Proof.Gen.KernelIdeal.Launch
import proofs.«110821_g2000507131286415_pallasbulk_1005_3_alg».proof.Proof.Gen.KernelIdeal.Points
import proofs.«110821_g2000507131286415_pallasbulk_1005_3_alg».proof.Proof.Gen.KernelIdeal.Frame
import proofs.«110821_g2000507131286415_pallasbulk_1005_3_alg».proof.Proof.Gen.ReferenceIdeal
import proofs.«110821_g2000507131286415_pallasbulk_1005_3_alg».proof.Proof.Gen.ReferenceIdeal.Skeleton
import proofs.«110821_g2000507131286415_pallasbulk_1005_3_alg».proof.Proof.Gen.ReferenceIdeal.Launch
import proofs.«110821_g2000507131286415_pallasbulk_1005_3_alg».proof.Proof.Gen.ReferenceIdeal.Points
import proofs.«110821_g2000507131286415_pallasbulk_1005_3_alg».proof.Proof.Gen.ReferenceIdeal.Frame
import proofs.«110821_g2000507131286415_pallasbulk_1005_3_alg».proof.Proof.Gen.Pre_finite_inputs
import proofs.«110821_g2000507131286415_pallasbulk_1005_3_alg».proof.Proof.Gen.KernelIdeal.Value
import proofs.«110821_g2000507131286415_pallasbulk_1005_3_alg».proof.Proof.Gen.ReferenceIdeal.Value
import proofs.«110821_g2000507131286415_pallasbulk_1005_3_alg».proof.Proof.KernelRows
import proofs.«110821_g2000507131286415_pallasbulk_1005_3_alg».proof.Proof.RefRows
import Idealize.ShloMosaic.Adequacy
import Idealize.ShloMosaic.Init

noncomputable section

namespace Cert.Proof

open Idealize.ShloMosaic Idealize.SL.Sem

/-- Both programs, run from memories that agree on the arguments, end with the result array at `Mlp.out` of those
    arguments. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Rows.run m' ρ')
  obtain ⟨e0, e1, e2, e3, e4, e5, e6⟩ := hagree c
  show Cert.Mlp.out _ _ _ _ _ _ _ = Cert.Mlp.out _ _ _ _ _ _ _
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
